-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S2048x2048 : Shape := ⟨2, ![2048, 2048]⟩
abbrev S2048 : Shape := ⟨1, ![2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_arg5 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S8x2048x2048 .f32) (main_arg1 : FVec F S2048x2048 .f32) (main_arg2 : FVec F S2048 .f32) (main_arg3 : FVec F S2048 .f32) (main_arg4 : FVec F S2048 .f32) (main_arg5 : FVec F S2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_v13 main_v16
-- ==== Kernel.lean ====
abbrev S8x2048x2048 : Shape := ⟨3, ![8, 2048, 2048]⟩
abbrev S2048x2048 : Shape := ⟨2, ![2048, 2048]⟩
abbrev S2048 : Shape := ⟨1, ![2048]⟩
abbrev S16384x2048 : Shape := ⟨2, ![16384, 2048]⟩
abbrev S_ : Shape := ⟨0, ![]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 21
  | .vmem => 9
  | .smem => 0
  | _ => 0

abbrev bufTy : (tb : Table) → Fin (tcTables nBuf tb) → BufTy
  | .hbm, ⟨0, _⟩ => ⟨S8x2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S16384x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S2048x2048, .f32⟩
  | .hbm, ⟨11, _⟩ => ⟨S_, .f32⟩
  | .hbm, ⟨12, _⟩ => ⟨S_, .f32⟩
  | .hbm, ⟨13, _⟩ => ⟨S2048, .f32⟩
  | .hbm, ⟨14, _⟩ => ⟨S2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S16384x2048, .f32⟩
  | .hbm, ⟨20, _⟩ => ⟨S8x2048x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x2048x2048_S16384x2048 : S8x2048x2048.ShapeCasts S16384x2048
  transposes_S2048x2048_S2048x2048_1_0 : S2048x2048.Transposes [1, 0] S2048x2048
  bitsLt_bf16_f32 : FTy.bits .bf16 < FTy.bits .f32
  reducesTo_S2048x2048_S_d0_1 : S2048x2048.ReducesTo [0, 1] S_
  h_S_ : 0 < S_.numel
  bcast_S_S2048 : S_.BroadcastsInDim S2048 (![] : Fin 0 → Fin S2048.rank)
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S16384x2048_S8x2048x2048 : S16384x2048.ShapeCasts S8x2048x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S16384x2048.size a
  hwx0_6 : ∀ i : grid0.Coords, EltTy.bits .f32 = 32 ∨ (Rect.block (s := S16384x2048) S256x2048.size (cc0_transform_6 i) (hinb0_6 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S256x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S2048x2048 : Shape := ⟨2, ![2048, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x1, .f32⟩
  | .hbm, ⟨27, _⟩ => ⟨S8x2048x2048, .f32⟩
  | .hbm, ⟨28, _⟩ => ⟨S8x2048x2048, .f32⟩
  | .hbm, ⟨29, _⟩ => ⟨S1x1x2048, .f32⟩
  | .hbm, ⟨30, _⟩ => ⟨S8x2048x2048, .f32⟩
  | .hbm, ⟨31, _⟩ => ⟨S8x2048x2048, .f32⟩
  | .hbm, ⟨32, _⟩ => ⟨S1x1x2048, .f32⟩
  | .hbm, ⟨33, _⟩ => ⟨S8x2048x2048, .f32⟩
  | .hbm, ⟨34, _⟩ => ⟨S8x2048x2048, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S_, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S1x1x2048, .f32⟩
  | .hbm, ⟨43, _⟩ => ⟨S8x2048x2048, .f32⟩
  | .hbm, ⟨44, _⟩ => ⟨S8x2048x2048, .f32⟩
  | .hbm, ⟨45, _⟩ => ⟨S1x1x2048, .f32⟩
  | .hbm, ⟨46, _⟩ => ⟨S8x2048x2048, .f32⟩
  | .hbm, ⟨47, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x2048_0_1_2 : S8x2048x1.BroadcastsInDim S8x2048x2048 (![0, 1, 2] : Fin 3 → Fin S8x2048x2048.rank)
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  reducesTo_S2048x2048_S_d0_1 : S2048x2048.ReducesTo [0, 1] S_
  bcast_S_S8x2048x2048 : S_.BroadcastsInDim S8x2048x2048 (![] : Fin 0 → Fin S8x2048x2048.rank)
  dot_S8x2048x2048_S2048x2048_S8x2048x2048_2_1_01_0_n_n_wf : DotDims.WF S8x2048x2048 S2048x2048 S8x2048x2048 [2] [1] [0, 1] [0] [] []

variable [Facts₀]

def dot_S8x2048x2048_S2048x2048_S8x2048x2048_2_1_01_0_n_n : DotDims S8x2048x2048 S2048x2048 S8x2048x2048 where
  lhsContracting := [2]
  rhsContracting := [1]
  lhsNonContracting := [0, 1]
  rhsNonContracting := [0]
  lhsBatch := []
  rhsBatch := []
  wf := dot_S8x2048x2048_S2048x2048_S8x2048x2048_2_1_01_0_n_n_wf

class Facts : Prop extends Facts₀ where

variable [Facts]
-- ==== Proof.Spec.lean ====
/-
  The function both programs compute, written once on the extended reals.

  Fix a token: one row r of 2048 entries. Its mean is mu = (sum_k r_k) / 2048, its variance
  var = (sum_k (r_k - mu)^2) / 2048, and the normalized row is
      n_k = ((r_k - mu) * rsqrt (var + eps)) * lw_k + lb_k,
  a layer normalization with elementwise scale lw and shift lb. One output feature is the product of the
  normalized row with a column col of the ternary weight matrix, then an affine map:
      (sum_k n_k * col_k) * sg + bt.
  The divisor 2048 and the offset eps stay the f32 words the two programs share; neither is ever evaluated.
  The ternary matrix (the sign of the weight) and the scale (the largest absolute weight) enter as
  parameters: both programs compute them by the same operations, so they are never opened either.

  The two programs differ in where the scale meets the per-feature factor g: one multiplies the product by
  sc * g_o, the other by sc and then by g_o. Multiplication on the extended reals is associative, so the two
  agree at every input, the infinite ones included (`outElt_assoc`).
-/
import Idealize.ShloMosaic.PureOps.Ideal
import Idealize.ShloMosaic.Lib.ValueIdx

noncomputable section

namespace Cert.BitLinear

open Idealize.ShloMosaic Idealize.ShloMosaic.ValueIdx

/-- The row width 2048 as the f32 word both programs divide by. -/
abbrev width : EReal := Ideal.ofBits .f32 0x45000000#32
/-- The variance offset as the f32 word both programs add. -/
abbrev eps : EReal := Ideal.ofBits .f32 0x3727C5AC#32

/-- The mean of a row. -/
def rowMean (r : Fin 2048 → EReal) : EReal := Ideal.div (∑ k, r k) width

/-- The variance of a row: the mean of the squared deviations from its mean. -/
def rowVar (r : Fin 2048 → EReal) : EReal :=
  Ideal.div (∑ k, (r k - rowMean r) * (r k - rowMean r)) width

/-- The normalized row: deviation times the reciprocal root of the offset variance, scaled and shifted. -/
def normRow (r lw lb : Fin 2048 → EReal) (k : Fin 2048) : EReal :=
  (r k - rowMean r) * Ideal.rsqrt (rowVar r + eps) * lw k + lb k

/-- One output feature: the normalized row against one weight column, then scale and shift. -/
def outElt (n col : Fin 2048 → EReal) (sg bt : EReal) : EReal := (∑ k, n k * col k) * sg + bt

/-- Scaling by `sc` and then by `g` is scaling by `sc * g`: associativity of the product on the extended reals. -/
theorem outElt_assoc (n col : Fin 2048 → EReal) (sc g bt : EReal) :
    (∑ k, n k * col k) * sc * g + bt = outElt n col (sc * g) bt := by
  unfold outElt
  rw [mul_assoc]

/-- The result array: at token `(b, s)` and feature `o`, the normalized row `x[b, s, ·]` against row `o` of the
    ternary matrix `q`, scaled by `sc * g[o]` and shifted by `bt[o]`. -/
def G (x : (⟨3, ![8, 2048, 2048]⟩ : Shape).Idx → EReal) (q : (⟨2, ![2048, 2048]⟩ : Shape).Idx → EReal) (sc : EReal)
    (g bt lw lb : (⟨1, ![2048]⟩ : Shape).Idx → EReal) : (⟨3, ![8, 2048, 2048]⟩ : Shape).Idx → EReal :=
  fun i => outElt (normRow (fun k => x (ix3 (i 0) (i 1) k)) (fun k => lw (ix1 k)) (fun k => lb (ix1 k)))
    (fun k => q (ix2 (i 2) k)) (sc * g (ix1 (i 2))) (bt (ix1 (i 2)))

end Cert.BitLinear

end
-- ==== Proof.RefValue.lean ====
/-
  The reference program's result is the specification `G`.

  The reference normalizes every token of x : [8, 2048, 2048] over its last axis: the row sum (a host sum from
  the zero word) divided by 2048 is the mean, the sum of squared deviations divided by 2048 the variance, and the
  deviation is multiplied by the reciprocal root of variance + eps, by ln_weight and shifted by ln_bias. It then
  contracts the normalized token with each ROW o of sign(weight) (`bsk,ok->bso`), multiplies by the largest
  absolute weight, then by gamma[o], and adds beta[o]. Read stage by stage at the index (b, s, o) this is
  `outElt (normRow x[b,s,·] lw lb) q[o,·]` scaled by sc and then g[o]; the specification scales by sc * g[o], and
  the two agree by associativity of the product on the extended reals.
  The sign matrix and the scale are left as the host operations that compute them: the kernel computes them by
  the same operations, so the bridge never reads them.
-/
import proofs.«170098_j86689619903495_1_alg».proof.Defs
import proofs.«170098_j86689619903495_1_alg».proof.Proof.Gen.ReferenceIdeal.Run
import proofs.«170098_j86689619903495_1_alg».proof.Proof.Gen.ReferenceIdeal.Read
import proofs.«170098_j86689619903495_1_alg».proof.Proof.Spec
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Cert.BitLinear

/-! ## Where each stage reads its operand, by coordinates -/

/-- The row sum of token (b, s) runs over x[b, s, k]. -/
theorem sum_idx (b : Fin 8) (s : Fin 2048) (k : Fin 2048) :
    idx_main_v0 (idx_main_v1 (ix3 b s (0 : Fin 1))) k = ix3 b s k :=
  funext fun a => by match a with | ⟨0, _⟩ => rfl | ⟨1, _⟩ => rfl | ⟨2, _⟩ => rfl

/-- So does the sum of squared deviations. -/
theorem sqsum_idx (b : Fin 8) (s : Fin 2048) (k : Fin 2048) :
    idx_main_v7 (idx_main_v8 (ix3 b s (0 : Fin 1))) k = ix3 b s k :=
  funext fun a => by match a with | ⟨0, _⟩ => rfl | ⟨1, _⟩ => rfl | ⟨2, _⟩ => rfl

/-- A per-token column broadcast along the row reads the token's one entry. -/
theorem col_idx4 (b : Fin 8) (s : Fin 2048) (k : Fin 2048) : idx_main_v4 (ix3 b s k) = ix3 b s (0 : Fin 1) :=
  funext fun a => by match a with | ⟨0, _⟩ => rfl | ⟨1, _⟩ => rfl | ⟨2, _⟩ => rfl
theorem col_idx11 (b : Fin 8) (s : Fin 2048) (k : Fin 2048) : idx_main_v11 (ix3 b s k) = ix3 b s (0 : Fin 1) :=
  funext fun a => by match a with | ⟨0, _⟩ => rfl | ⟨1, _⟩ => rfl | ⟨2, _⟩ => rfl
theorem col_idx16 (b : Fin 8) (s : Fin 2048) (k : Fin 2048) : idx_main_v16 (ix3 b s k) = ix3 b s (0 : Fin 1) :=
  funext fun a => by match a with | ⟨0, _⟩ => rfl | ⟨1, _⟩ => rfl | ⟨2, _⟩ => rfl

/-- A per-feature vector broadcast over the tokens reads its entry at the last coordinate. -/
theorem feat_idx19 (b : Fin 8) (s : Fin 2048) (k : Fin 2048) : idx_main_v18 (idx_main_v19 (ix3 b s k)) = ix1 k :=
  funext fun a => by match a with | ⟨0, _⟩ => rfl
theorem feat_idx22 (b : Fin 8) (s : Fin 2048) (k : Fin 2048) : idx_main_v21 (idx_main_v22 (ix3 b s k)) = ix1 k :=
  funext fun a => by match a with | ⟨0, _⟩ => rfl
theorem feat_idx31 (b : Fin 8) (s : Fin 2048) (o : Fin 2048) : idx_main_v30 (idx_main_v31 (ix3 b s o)) = ix1 o :=
  funext fun a => by match a with | ⟨0, _⟩ => rfl
theorem feat_idx34 (b : Fin 8) (s : Fin 2048) (o : Fin 2048) : idx_main_v33 (idx_main_v34 (ix3 b s o)) = ix1 o :=
  funext fun a => by match a with | ⟨0, _⟩ => rfl

/-- The contraction at (b, s, o) pairs the token's entry k with the weight's entry (o, k). -/
theorem dot_lidx (b : Fin 8) (s : Fin 2048) (o k : Fin 2048) : lidx_main_v27 (ix3 b s o) k = ix3 b s k :=
  funext fun a => by match a with | ⟨0, _⟩ => rfl | ⟨1, _⟩ => rfl | ⟨2, _⟩ => rfl
theorem dot_ridx (b : Fin 8) (s : Fin 2048) (o k : Fin 2048) : ridx_main_v27 (ix3 b s o) k = ix2 o k :=
  funext fun a => by match a with | ⟨0, _⟩ => rfl | ⟨1, _⟩ => rfl

/-! ## The stages -/

/-- The mean column at token (b, s) is the mean of the row x[b, s, ·]. -/
theorem mean_eq (x0 : (⟨S8x2048x2048, .f32⟩ : BufTy).Contents (Elt Ideal)) (b : Fin 8) (s : Fin 2048) :
    val_main_v3 (F := Ideal) x0 (ix3 b s (0 : Fin 1)) = rowMean (fun k => x0 (ix3 b s k)) := by
  rw [val_main_v3_apply, val_main_v1_apply, val_main_v0_apply, val_main_v2_apply, val_main_cst_0_apply, val_main_cst_apply]
  simp only [sum_idx]
  show Ideal.div (Ideal.ofBits .f32 0x00000000#32 + _) _ = _
  rw [Ideal.ofBits_zero_f32, zero_add]
  rfl

/-- The variance column at token (b, s) is the variance of the row. -/
theorem var_eq (x0 : (⟨S8x2048x2048, .f32⟩ : BufTy).Contents (Elt Ideal)) (b : Fin 8) (s : Fin 2048) :
    val_main_v10 (F := Ideal) x0 (ix3 b s (0 : Fin 1)) = rowVar (fun k => x0 (ix3 b s k)) := by
  rw [val_main_v10_apply, val_main_v8_apply, val_main_v7_apply, val_main_v9_apply, val_main_cst_2_apply, val_main_cst_1_apply]
  simp only [sqsum_idx, val_main_v6_apply, val_main_v5_apply, val_main_v4_apply, col_idx4, mean_eq]
  show Ideal.div (Ideal.ofBits .f32 0x00000000#32 + _) _ = _
  rw [Ideal.ofBits_zero_f32, zero_add]
  rfl

/-- The normalized activation at (b, s, k) is the normalized row's entry k. -/
theorem norm_eq (x0 : (⟨S8x2048x2048, .f32⟩ : BufTy).Contents (Elt Ideal)) (x4 x5 : (⟨S2048, .f32⟩ : BufTy).Contents (Elt Ideal))
    (b : Fin 8) (s : Fin 2048) (k : Fin 2048) :
    val_main_v23 (F := Ideal) x0 x4 x5 (ix3 b s k)
      = normRow (fun k => x0 (ix3 b s k)) (fun k => x4 (ix1 k)) (fun k => x5 (ix1 k)) k := by
  rw [val_main_v23_apply, val_main_v20_apply, val_main_v22_apply, val_main_v21_apply, val_main_v19_apply, val_main_v18_apply,
    val_main_v17_apply, val_main_v16_apply, val_main_v15_apply, val_main_v14_apply, val_main_v13_apply, val_main_cst_3_apply,
    val_main_v12_apply, val_main_v11_apply]
  simp only [feat_idx19, feat_idx22, col_idx11, col_idx16, mean_eq, var_eq]
  rfl

/-- THE REFERENCE IS THE SPECIFICATION: its result stage is `G` of the arguments, with the ternary matrix and the
    scale left as the host operations that compute them. -/
theorem result_eq (x0 : (⟨S8x2048x2048, .f32⟩ : BufTy).Contents (Elt Ideal)) (x1 : (⟨S2048x2048, .f32⟩ : BufTy).Contents (Elt Ideal))
    (x2 x3 x4 x5 : (⟨S2048, .f32⟩ : BufTy).Contents (Elt Ideal)) :
    val_main_v35 (F := Ideal) x0 x1 x2 x3 x4 x5
      = G x0 (val_main_v24 (F := Ideal) x1) (val_main_v26 (F := Ideal) x1 ix0) x2 x3 x4 x5 := by
  funext i
  obtain ⟨b, s, o, rfl⟩ : ∃ (b : Fin 8) (s : Fin 2048) (o : Fin 2048), i = ix3 b s o := ⟨i 0, i 1, i 2, eq_ix3 i⟩
  rw [val_main_v35_apply, val_main_v32_apply, val_main_v34_apply, val_main_v33_apply, val_main_v31_apply, val_main_v30_apply,
    val_main_v29_apply, val_main_v28_apply, val_main_v27_apply]
  simp only [feat_idx31, feat_idx34, dot_lidx, dot_ridx, norm_eq]
  exact outElt_assoc _ _ _ _ _

end Cert.ReferenceIdeal.RefValue

end
-- ==== Proof.KernelBlocks.lean ====
/-
  Which rows and columns of its array each window's block holds at a grid point.

  The region has 64 points. The token window (window 0, a [256, 2048] block of the [16384, 2048] token matrix)
  and the output window (window 6, the same shapes) advance by one block of 256 rows per point: entry (p, k) of
  the block at point t is entry (256 t + p, k) of the array. The five other windows are the whole of their
  arrays at every point: entry y of the block is entry y of the array.
-/
import proofs.«170098_j86689619903495_1_alg».proof.Proof.Gen.KernelIdeal.Frame
import Idealize.ShloMosaic.Lib.ValueIdx
import Idealize.ShloMosaic.Lib.Tactic

set_option maxRecDepth 16384

noncomputable section

open Idealize.ShloMosaic Idealize.ShloMosaic.TcCoe Idealize.SL.Sem

namespace Cert.KernelIdeal.Hand

open Cert.KernelIdeal Cert.KernelIdeal.Gen Idealize.ShloMosaic.ValueIdx

theorem hz : (![0, 0] : Fin 2 → Nat) = fun _ => 0 := funext fun a => by fin_cases a <;> rfl

/-- The token window and the output window move down one block of rows per point; the others stay at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 64 := lt_of_lt_of_eq t.isLt N_0

/-- Entry (p, k) of the token block at point t is entry (256 t + p, k) of the token matrix. -/
theorem blk0_emb (t : Fin cfg0.N) (p : Fin 256) (k : Fin 2048) (r : Fin 16384) (hr : r.val = t.val * 256 + p.val) :
    ((cfg0.win 0).blk t).view.emb (ix2 p k) = (ix2 r k : S16384x2048.Idx) := by
  obtain ⟨e0, e1, -⟩ := idx_facts t
  refine funext fun a => Fin.ext ?_
  match a with
  | ⟨0, _⟩ => show win0_0.index t (0 : Fin 2) * 256 + 1 * p.val = r.val; omega
  | ⟨1, _⟩ => show win0_0.index t (1 : Fin 2) * 2048 + 1 * k.val = k.val; omega

/-- The layer-norm scale row's block is the row. -/
theorem blk1_emb (t : Fin cfg0.N) (k : Fin 2048) :
    ((cfg0.win 1).blk t).view.emb (ix2 (0 : Fin 1) k) = (ix2 (0 : Fin 1) k : S1x2048.Idx) := by
  obtain ⟨-, -, e0, e1, -⟩ := idx_facts t
  refine funext fun a => Fin.ext ?_
  match a with
  | ⟨0, _⟩ => show win0_1.index t (0 : Fin 2) * 1 + 1 * 0 = 0; omega
  | ⟨1, _⟩ => show win0_1.index t (1 : Fin 2) * 2048 + 1 * k.val = k.val; omega

/-- The layer-norm shift row's block is the row. -/
theorem blk2_emb (t : Fin cfg0.N) (k : Fin 2048) :
    ((cfg0.win 2).blk t).view.emb (ix2 (0 : Fin 1) k) = (ix2 (0 : Fin 1) k : S1x2048.Idx) := by
  obtain ⟨-, -, -, -, e0, e1, -⟩ := idx_facts t
  refine funext fun a => Fin.ext ?_
  match a with
  | ⟨0, _⟩ => show win0_2.index t (0 : Fin 2) * 1 + 1 * 0 = 0; omega
  | ⟨1, _⟩ => show win0_2.index t (1 : Fin 2) * 2048 + 1 * k.val = k.val; omega

/-- The matrix's block is the whole matrix. -/
theorem blk3_emb (t : Fin cfg0.N) (k q : Fin 2048) :
    ((cfg0.win 3).blk t).view.emb (ix2 k q) = (ix2 k q : S2048x2048.Idx) := by
  obtain ⟨-, -, -, -, -, -, e0, e1, -⟩ := idx_facts t
  refine funext fun a => Fin.ext ?_
  match a with
  | ⟨0, _⟩ => show win0_3.index t (0 : Fin 2) * 2048 + 1 * k.val = k.val; omega
  | ⟨1, _⟩ => show win0_3.index t (1 : Fin 2) * 2048 + 1 * q.val = q.val; omega

/-- The per-feature scale row's block is the row. -/
theorem blk4_emb (t : Fin cfg0.N) (q : Fin 2048) :
    ((cfg0.win 4).blk t).view.emb (ix2 (0 : Fin 1) q) = (ix2 (0 : Fin 1) q : S1x2048.Idx) := by
  obtain ⟨-, -, -, -, -, -, -, -, e0, e1, -⟩ := idx_facts t
  refine funext fun a => Fin.ext ?_
  match a with
  | ⟨0, _⟩ => show win0_4.index t (0 : Fin 2) * 1 + 1 * 0 = 0; omega
  | ⟨1, _⟩ => show win0_4.index t (1 : Fin 2) * 2048 + 1 * q.val = q.val; omega

/-- The per-feature shift row's block is the row. -/
theorem blk5_emb (t : Fin cfg0.N) (q : Fin 2048) :
    ((cfg0.win 5).blk t).view.emb (ix2 (0 : Fin 1) q) = (ix2 (0 : Fin 1) q : S1x2048.Idx) := by
  obtain ⟨-, -, -, -, -, -, -, -, -, -, e0, e1, -⟩ := idx_facts t
  refine funext fun a => Fin.ext ?_
  match a with
  | ⟨0, _⟩ => show win0_5.index t (0 : Fin 2) * 1 + 1 * 0 = 0; omega
  | ⟨1, _⟩ => show win0_5.index t (1 : Fin 2) * 2048 + 1 * q.val = q.val; omega

/-- Entry (p, q) of the output block at point t is entry (256 t + p, q) of the output array. -/
theorem blk6_emb (t : Fin cfg0.N) (p : Fin 256) (q : Fin 2048) (r : Fin 16384) (hr : r.val = t.val * 256 + p.val) :
    ((cfg0.win 6).blk t).view.emb (ix2 p q) = (ix2 r q : S16384x2048.Idx) := by
  obtain ⟨-, -, -, -, -, -, -, -, -, -, -, -, e0, e1⟩ := idx_facts t
  refine funext fun a => Fin.ext ?_
  match a with
  | ⟨0, _⟩ => show win0_6.index t (0 : Fin 2) * 256 + 1 * p.val = r.val; omega
  | ⟨1, _⟩ => show win0_6.index t (1 : Fin 2) * 2048 + 1 * q.val = q.val; omega

/-- An index of the output array is in point t's block iff each coordinate is in the block's range. -/
theorem mem_oblk (t : Fin cfg0.N) (i : S16384x2048.Idx) :
    i ∈ ((cfg0.win 6).blk t).view.set ↔ ∀ a : Fin 2, win0_6.index t a * S256x2048.size a ≤ (i a).val ∧ (i a).val < win0_6.index t a * S256x2048.size a + S256x2048.size a := by
  show i ∈ ((View.whole main_v12).slice (win0_6.rect t)).set ↔ _
  rw [View.set_slice_whole, Rect.mem_set_unit]
  exact Iff.rfl

/-- The 64 row blocks cover the output array: row r is in the block of point r / 256. -/
theorem covered (i : S16384x2048.Idx) :
    ∃ t : Fin cfg0.N, (cfg0.win 6).flush t = true ∧ i ∈ ((cfg0.win 6).blk t).view.set := by
  have h0 : (i 0).val < 16384 := (i 0).isLt
  have h1 : (i 1).val < 2048 := (i 1).isLt
  have hN : cfg0.N = 64 := N_0
  have ht : (i 0).val / 256 < cfg0.N := by rw [hN]; omega
  obtain ⟨-, -, -, -, -, -, -, -, -, -, -, -, e0, e1⟩ := idx_facts ⟨(i 0).val / 256, ht⟩
  refine ⟨⟨(i 0).val / 256, ht⟩, flush0_6 _, ?_⟩
  rw [mem_oblk]
  intro a
  match a with
  | ⟨0, _⟩ =>
    show win0_6.index ⟨(i 0).val / 256, ht⟩ (0 : Fin 2) * 256 ≤ (i 0).val ∧ (i 0).val < win0_6.index ⟨(i 0).val / 256, ht⟩ (0 : Fin 2) * 256 + 256
    rw [e0]
    show (i 0).val / 256 * 256 ≤ (i 0).val ∧ (i 0).val < (i 0).val / 256 * 256 + 256
    omega
  | ⟨1, _⟩ =>
    show win0_6.index ⟨(i 0).val / 256, ht⟩ (1 : Fin 2) * 2048 ≤ (i 1).val ∧ (i 1).val < win0_6.index ⟨(i 0).val / 256, ht⟩ (1 : Fin 2) * 2048 + 2048
    rw [e1]
    omega

end Cert.KernelIdeal.Hand

end
-- ==== Proof.LibKeepdims.lean ====
/- Reading a keepdims row reduction at coordinates: a sum along the rows of an [a, b] array as a sum over the
   column coordinate, the [a] result cast to a column [a, 1], and that column broadcast back over [a, b]. These are
   the three layout steps of every `jnp.sum(x, axis=-1, keepdims=True)` followed by a broadcast against x. -/
import Idealize.ShloMosaic.Lib.ValueIdx
import Idealize.ShloMosaic.Lib.Pipeline.Value
import Idealize.ShloMosaic.PureOps.Ideal.Laws

noncomputable section

open scoped BigOperators

namespace Cert.Keepdims

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- On the extended reals a float sum along the rows of an `[a, b]` array, read at row `p`, is the sum over the
    column coordinate of the row's entries. The accumulator's two side conditions are taken as the printed programs
    carry them (any proofs of those two propositions). -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => Fin.ext ?_)
  match d with
  | ⟨0, _⟩ => rfl
  | ⟨1, _⟩ => rfl

end Cert.Keepdims

end
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.KernelPayload.lean ====
/-
  The kernel body's arithmetic, read at an index.

  One grid point holds a block of 256 tokens x0 : [256, 2048], the layer-norm scale and shift as rows x1, x2 :
  [1, 2048], the transposed ternary matrix x3 : [2048, 2048] (entry (k, o)), and the per-feature scale and shift
  as rows x4, x5 : [1, 2048]. The body sums each token along its row, divides by 2048 and keeps the result as a
  column; subtracts that column from the block; repeats the same on the squared deviations for the variance;
  multiplies by the reciprocal root of variance + eps, by the scale row and adds the shift row; multiplies the
  normalized block by the matrix into a zero accumulator; multiplies by the row x4 and adds the row x5.
  Entry (p, q) of the result is therefore
      (sum_k n_k * x3[k, q]) * x4[0, q] + x5[0, q],
  with n the normalized row of token p: `outElt (normRow x0[p,·] x1[0,·] x2[0,·]) x3[·,q] x4[0,q] x5[0,q]`.
  A change of float format is the identity on the extended reals, so the cast to bf16 before the product is
  not seen.
-/
import proofs.«170098_j86689619903495_1_alg».proof.Proof.Gen.KernelIdeal.Skeleton
import proofs.«170098_j86689619903495_1_alg».proof.Proof.Spec
import proofs.«170098_j86689619903495_1_alg».proof.Proof.LibKeepdims
import proofs.«170098_j86689619903495_1_alg».proof.Proof.LibDotRead
import Idealize.ShloMosaic.Lib.ValueLayout
import Idealize.ShloMosaic.PureOps.Ideal.Laws

noncomputable section

namespace Cert.KernelIdeal.Payload

open Cert.KernelIdeal Cert.KernelIdeal.Gen
open Idealize.ShloMosaic Idealize.ShloMosaic.ValueIdx Cert.BitLinear Cert.Keepdims

/-! ## The pieces of the body, as whole-block values -/

/-- The column of row means of a block: the row sums over 2048, kept as [256, 1]. -/
def meanCol (v : FVec Ideal S256x2048 .f32) : FVec Ideal S256x1 .f32 :=
  divf (shapeCast S256x1 (multiReduction .add [1] S256 v 0x00000000#32 reduces_S256x2048_S256 (.inl rfl) rfl) shapeCasts_S256_S256x1)
    (broadcast S256x1 (Scalar.ofBits .f32 0x45000000#32))

/-- The block with each row's mean subtracted. -/
def centered (v : FVec Ideal S256x2048 .f32) : FVec Ideal S256x2048 .f32 :=
  subf v (broadcastTo S256x2048 (meanCol v) broadcasts_S256x1_S256x2048)

/-- The column of reciprocal roots of the offset row variances. -/
def rstdCol (v : FVec Ideal S256x2048 .f32) : FVec Ideal S256x1 .f32 :=
  rsqrt (addf (meanCol (mulf (centered v) (centered v))) (broadcast S256x1 (Scalar.ofBits .f32 0x3727C5AC#32)))

/-- The normalized block: centered, scaled by the reciprocal root, by the scale row, shifted by the shift row. -/
def normed (v : FVec Ideal S256x2048 .f32) (lw lb : FVec Ideal S1x2048 .f32) : FVec Ideal S256x2048 .f32 :=
  addf (mulf (mulf (centered v) (broadcastTo S256x2048 (rstdCol v) broadcasts_S256x1_S256x2048))
    (broadcastTo S256x2048 lw broadcasts_S1x2048_S256x2048)) (broadcastTo S256x2048 lb broadcasts_S1x2048_S256x2048)

/-! ## Each piece at coordinates -/

/-- The mean column at token p is the mean of row p. -/
theorem meanCol_apply (v : FVec Ideal S256x2048 .f32) (p : Fin 256) :
    meanCol v (ix2 p (0 : Fin 1)) = rowMean (fun k => v (ix2 p k)) :=
  congrArg (fun z => Ideal.div z width) ((shapeCast_a_a1_apply _ _ p 0).trans (rowSum_apply v _ _ _ _ p))

/-- The centered block at (p, k) is the entry less its row's mean. -/
theorem centered_apply (v : FVec Ideal S256x2048 .f32) (p : Fin 256) (k : Fin 2048) :
    centered v (ix2 p k) = v (ix2 p k) - rowMean (fun k => v (ix2 p k)) :=
  congrArg (fun z => v (ix2 p k) - z) ((broadcastTo_a1_ab_apply _ _ p k).trans (meanCol_apply v p))

/-- The mean of the squared deviations of row p is the row's variance. -/
theorem sq_mean (v : FVec Ideal S256x2048 .f32) (p : Fin 256) :
    rowMean (fun k => (mulf (centered v) (centered v)) (ix2 p k)) = rowVar (fun k => v (ix2 p k)) := by
  unfold rowVar
  show Ideal.div (∑ k : Fin 2048, centered v (ix2 p k) * centered v (ix2 p k)) width = _
  simp only [centered_apply]

/-- The reciprocal-root column at token p. -/
theorem rstdCol_apply (v : FVec Ideal S256x2048 .f32) (p : Fin 256) :
    rstdCol v (ix2 p (0 : Fin 1)) = Ideal.rsqrt (rowVar (fun k => v (ix2 p k)) + eps) :=
  congrArg (fun z => Ideal.rsqrt (z + eps)) ((meanCol_apply _ p).trans (sq_mean v p))

/-- The normalized block at (p, k) is entry k of the normalized row of token p. -/
theorem normed_apply (v : FVec Ideal S256x2048 .f32) (lw lb : FVec Ideal S1x2048 .f32) (p : Fin 256) (k : Fin 2048) :
    normed v lw lb (ix2 p k)
      = normRow (fun k => v (ix2 p k)) (fun k => lw (ix2 (0 : Fin 1) k)) (fun k => lb (ix2 (0 : Fin 1) k)) k := by
  show centered v (ix2 p k) * broadcastTo S256x2048 (rstdCol v) broadcasts_S256x1_S256x2048 (ix2 p k)
      * broadcastTo S256x2048 lw broadcasts_S1x2048_S256x2048 (ix2 p k)
      + broadcastTo S256x2048 lb broadcasts_S1x2048_S256x2048 (ix2 p k) = _
  rw [centered_apply, broadcastTo_a1_ab_apply, rstdCol_apply, broadcastTo_1b_ab_apply, broadcastTo_1b_ab_apply]
  rfl

/-- The product into the zero accumulator at (p, q): the sum over the contracted coordinate. -/
theorem matmul_apply_ix2 (L : FVec Ideal S256x2048 .bf16) (R : FVec Ideal S2048x2048 .bf16) (p : Fin 256) (q : Fin 2048) :
    matmul dot_S256x2048_S2048x2048_S256x2048_1_0_0_1_n_n none L R (constant S256x2048 .f32 0x00000000#32) (ix2 p q)
      = ∑ k : Fin 2048, L (ix2 p k) * R (ix2 k q) :=
  (Ideal.matmul_constant_zero_apply _ none L R (ix2 p q)).trans
    (Cert.DotRead.sum_contr_plain dot_S256x2048_S2048x2048_S256x2048_1_0_0_1_n_n_wf L R p q)

/-! ## The payload -/

/-- The generated payload is the composition of the pieces (its self-casts are the identity). -/
theorem pay_eq (x0 : FVec Ideal S256x2048 .f32) (x1 x2 : FVec Ideal S1x2048 .f32) (x3 : FVec Ideal S2048x2048 .bf16)
    (x4 x5 : FVec Ideal S1x2048 .f32) :
    k0_pay1 (F := Ideal) x0 x1 x2 x3 x4 x5
      = addf (mulf (matmul dot_S256x2048_S2048x2048_S256x2048_1_0_0_1_n_n none
            (truncf .bf16 (normed x0 x1 x2) bitsLt_bf16_f32) x3 (constant S256x2048 .f32 0x00000000#32))
          (broadcastTo S256x2048 x4 broadcasts_S1x2048_S256x2048)) (broadcastTo S256x2048 x5 broadcasts_S1x2048_S256x2048) := by
  unfold k0_pay1
  simp only [shapeCast_self]
  rfl

/-- THE PAYLOAD AT (p, q): the normalized row of token p against column q of the matrix, scaled and shifted. -/
theorem pay_apply (x0 : FVec Ideal S256x2048 .f32) (x1 x2 : FVec Ideal S1x2048 .f32) (x3 : FVec Ideal S2048x2048 .bf16)
    (x4 x5 : FVec Ideal S1x2048 .f32) (p : Fin 256) (q : Fin 2048) :
    k0_pay1 (F := Ideal) x0 x1 x2 x3 x4 x5 (ix2 p q)
      = outElt (normRow (fun k => x0 (ix2 p k)) (fun k => x1 (ix2 (0 : Fin 1) k)) (fun k => x2 (ix2 (0 : Fin 1) k)))
          (fun k => x3 (ix2 k q)) (x4 (ix2 (0 : Fin 1) q)) (x5 (ix2 (0 : Fin 1) q)) := by
  rw [pay_eq]
  show matmul dot_S256x2048_S2048x2048_S256x2048_1_0_0_1_n_n none (truncf .bf16 (normed x0 x1 x2) bitsLt_bf16_f32) x3
        (constant S256x2048 .f32 0x00000000#32) (ix2 p q)
      * broadcastTo S256x2048 x4 broadcasts_S1x2048_S256x2048 (ix2 p q)
      + broadcastTo S256x2048 x5 broadcasts_S1x2048_S256x2048 (ix2 p q) = _
  rw [matmul_apply_ix2, broadcastTo_1b_ab_apply, broadcastTo_1b_ab_apply]
  unfold outElt
  simp only [truncf_apply, normed_apply]

end Cert.KernelIdeal.Payload

end
-- ==== Proof.KernelRegion.lean ====
/-
  What the region leaves in its output array, for any contents of the arrays it stages.

  Let X : [16384, 2048] be the token matrix, lwr, lbr : [1, 2048] the layer-norm rows, W : [2048, 2048] the
  matrix (entry (k, q)), and sg, br : [1, 2048] the per-feature rows, as the region finds them. Point t reads
  rows 256 t … 256 t + 255 of X and the other arrays whole, and its body's payload at (p, q) is the output feature
  q of token 256 t + p: `rowOut (256 t + p) q`. So what point t writes back is block t of the one array
  `regionOut`, and since the 64 blocks cover the output array, the array ends at `regionOut`.
  The six arrays are kept as opaque values throughout: nothing here depends on how @main computed them.
-/
import proofs.«170098_j86689619903495_1_alg».proof.Proof.KernelBlocks
import proofs.«170098_j86689619903495_1_alg».proof.Proof.KernelPayload
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Payload
open Idealize.ShloMosaic.ValueIdx Cert.BitLinear

section Generic

variable (X : FVec Ideal S16384x2048 .f32) (lwr lbr : FVec Ideal S1x2048 .f32) (W : FVec Ideal S2048x2048 .bf16)
  (sg br : FVec Ideal S1x2048 .f32)

/-- Output feature q of token r: the normalized row r of X against column q of W, scaled and shifted. -/
def rowOut (r : Fin 16384) (q : Fin 2048) : EReal :=
  outElt (normRow (fun k => X (ix2 r k)) (fun k => lwr (ix2 (0 : Fin 1) k)) (fun k => lbr (ix2 (0 : Fin 1) k)))
    (fun k => W (ix2 k q)) (sg (ix2 (0 : Fin 1) q)) (br (ix2 (0 : Fin 1) q))

/-- The output array as one function of the staged arrays. -/
def regionOut : FVec Ideal S16384x2048 .f32 := fun j => rowOut X lwr lbr W sg br (j 0) (j 1)

/-- WHAT POINT t LEAVES in the output's staging buffer, cut to its block, is block t of `regionOut`. -/
theorem point_eq (t : Fin cfg0.N) :
    (cfg0.win 6).cut (grid0.coords t)
        (out0_6 (((cfg0.win 0).blk t).view.read (Elt Ideal) X) (((cfg0.win 1).blk t).view.read (Elt Ideal) lwr)
          (((cfg0.win 2).blk t).view.read (Elt Ideal) lbr) (((cfg0.win 3).blk t).view.read (Elt Ideal) W)
          (((cfg0.win 4).blk t).view.read (Elt Ideal) sg) (((cfg0.win 5).blk t).view.read (Elt Ideal) br))
      = ((cfg0.win 6).blk t).view.read (Elt Ideal) (regionOut X lwr lbr W sg br) := by
  unfold out0_6
  rw [View.canon_unit_zero hz]
  simp only [View.ld_unit_zero (S := S256x2048) hz, View.ld_unit_zero (S := S1x2048) hz, View.ld_unit_zero (S := S2048x2048) hz]
  show (fun j : S256x2048.Idx => k0_pay1 (F := Ideal)
          (fun y : S256x2048.Idx => X (((cfg0.win 0).blk t).view.emb y))
          (fun y : S1x2048.Idx => lwr (((cfg0.win 1).blk t).view.emb y))
          (fun y : S1x2048.Idx => lbr (((cfg0.win 2).blk t).view.emb y))
          (fun y : S2048x2048.Idx => W (((cfg0.win 3).blk t).view.emb y))
          (fun y : S1x2048.Idx => sg (((cfg0.win 4).blk t).view.emb y))
          (fun y : S1x2048.Idx => br (((cfg0.win 5).blk t).view.emb y)) j)
      = fun j : S256x2048.Idx => regionOut X lwr lbr W sg br (((cfg0.win 6).blk t).view.emb j)
  funext j
  obtain ⟨p, q, rfl⟩ : ∃ (p : Fin 256) (q : Fin 2048), j = ix2 p q := ⟨j 0, j 1, eq_ix2 j⟩
  have hlt : t.val * 256 + p.val < 16384 := by have := t_lt t; have := p.isLt; omega
  rw [blk6_emb t p q ⟨t.val * 256 + p.val, hlt⟩ rfl]
  show _ = rowOut X lwr lbr W sg br ⟨t.val * 256 + p.val, hlt⟩ q
  refine (pay_apply _ _ _ _ _ _ p q).trans ?_
  unfold rowOut
  simp only [blk0_emb t p _ ⟨t.val * 256 + p.val, hlt⟩ rfl, blk1_emb t, blk2_emb t, blk3_emb t, blk4_emb t, blk5_emb t]

end Generic

variable (m : (ℓ : Loc nD τ sig) → Buf (Elt Ideal) ℓ) (ρ : Dev nD → PrngReg)

/-- The output array after the region, of the arrays as the region finds them. -/
def arrG (c : Dev nD) : FVec Ideal S16384x2048 .f32 :=
  regionOut (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))

/-- What point t writes back is block t of `arrG`. -/
theorem flushed_eq (c : Dev nD) (t : Fin cfg0.N) :
    (dats m 0 c).flushed 6 t = ((cfg0.win 6).blk t).view.read (Elt Ideal) (arrG m c) := by
  show (cfg0.win 6).cut (grid0.coords t) ((dats m 0 c).after 6 t) = _
  rw [after0_6]
  unfold iblk arrG
  exact point_eq _ _ _ _ _ _ t

/-- THE OUTPUT ARRAY after the region is `arrG`: the 64 blocks cover it. -/
theorem final_o (c : Dev nD) : (dats m 0 c).arrAt 6 cfg0.N = arrG m c :=
  (dats m 0 c).arrAt_eq_of_cover 6 (arrG m c) (fun t _ => flushed_eq m c t) covered

end Cert.KernelIdeal.Hand

end
-- ==== Proof.KernelHost.lean ====
/-
  The kernel program's result buffer holds the specification `G` of its arguments.

  Before the region @main merges the two leading axes of x into the token matrix, reshapes ln_weight, ln_bias
  and beta into rows [1, 2048], makes the matrix as the transpose of sign(weight) (cast to bf16, the identity on
  the extended reals), and the per-feature scale row as (max |weight|) * gamma. After the region it splits the
  output's row axis back into (8, 2048). Token (b, s) is row 2048 b + s of the token matrix, so the result at
  (b, s, o) is the region's output at (2048 b + s, o): the normalized row x[b, s, ·] against
  sign(weight)[o, ·], times (max |weight|) * gamma[o], plus beta[o]. The largest absolute weight is never
  evaluated: it enters as the value of the host's reduction, the same operation the reference applies.
-/
import proofs.«170098_j86689619903495_1_alg».proof.Proof.KernelRegion
import Idealize.ShloMosaic.Lib.StableHlo.Run
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Payload
open Idealize.ShloMosaic.ValueIdx Idealize.ShloMosaic.StableHlo Cert.BitLinear

/-- The largest absolute weight, as the host computes it: a maximum over every entry of |w| from minus infinity. -/
def absMax (w : FVec Ideal S2048x2048 .f32) : FVec Ideal S_ .f32 :=
  Host.reduce FloatOps.maximumf (Host.absf w) (constant S_ .f32 0xFF800000#32) reducesTo_S2048x2048_S_d0_1 h_S_

/-! ## Reading the layout operations at coordinates (any contents) -/

/-- The specification at (b, s, o). -/
theorem G_apply (x : FVec Ideal S8x2048x2048 .f32) (q : FVec Ideal S2048x2048 .f32) (sc : EReal)
    (g bt lw lb : FVec Ideal S2048 .f32) (b : Fin 8) (s o : Fin 2048) :
    G x q sc g bt lw lb (ix3 b s o)
      = outElt (normRow (fun k => x (ix3 b s k)) (fun k => lw (ix1 k)) (fun k => lb (ix1 k)))
          (fun k => q (ix2 o k)) (sc * g (ix1 o)) (bt (ix1 o)) := rfl

/-- The region's output at (r, q). -/
theorem regionOut_apply (X : FVec Ideal S16384x2048 .f32) (lwr lbr : FVec Ideal S1x2048 .f32) (W : FVec Ideal S2048x2048 .bf16)
    (sg br : FVec Ideal S1x2048 .f32) (r : Fin 16384) (q : Fin 2048) :
    regionOut X lwr lbr W sg br (ix2 r q) = rowOut X lwr lbr W sg br r q := rfl

/-- Row 2048 b + s of the token matrix is token (b, s). -/
theorem tokens_apply (x : FVec Ideal S8x2048x2048 .f32) (b : Fin 8) (s k : Fin 2048) (r : Fin 16384)
    (hr : r.val = b.val * 2048 + s.val) :
    shapeCast S16384x2048 x shapeCasts_S8x2048x2048_S16384x2048 (ix2 r k) = x (ix3 b s k) :=
  shapeCast_apply x _ _ _ (by
    rw [Shape.rowMajor_val_three, Shape.rowMajor_val_two]
    show (b.val * 2048 + s.val) * 2048 + k.val = r.val * 2048 + k.val
    rw [hr])

/-- The transposed matrix at (k, o) is the matrix at (o, k). -/
theorem signT_apply (w : FVec Ideal S2048x2048 .f32) (k o : Fin 2048) :
    transpose S2048x2048 [1, 0] w transposes_S2048x2048_S2048x2048_1_0 (ix2 k o) = w (ix2 o k) :=
  transpose_apply _ w _ _ _ fun c => match c with | ⟨0, _⟩ => rfl | ⟨1, _⟩ => rfl

/-- The per-feature scale at feature o: the scalar times gamma[o]. -/
theorem scaledFeat_apply (sc : FVec Ideal S_ .f32) (g : FVec Ideal S2048 .f32) (o : Fin 2048) :
    mulf (broadcastInDim S2048 ![] bcast_S_S2048 sc) g (ix1 o) = sc ix0 * g (ix1 o) := by
  rw [mulf_apply]
  exact congrArg (· * g (ix1 o)) (broadcastInDim_apply _ bcast_S_S2048 sc (ix1 o) ix0 (fun a => a.elim0))

variable (m : (ℓ : Loc nD τ sig) → Buf (Elt Ideal) ℓ) (ρ : Dev nD → PrngReg)

/-! ## The arrays the region finds, from the host operations before it -/

theorem V_tokens (c : Dev nD) : (V m c (Pipeline.arrRef spec0 0) : FVec Ideal S16384x2048 .f32)
    = shapeCast S16384x2048 (m ((c : Thread nD τ).loc main_arg0)) shapeCasts_S8x2048x2048_S16384x2048 := by
  show StableHlo.after hostOps0 (fun b => m (c, b)) (Proc.devRef .tc main_v0) = _
  after_results
  rfl

theorem V_lw (c : Dev nD) : (V m c (Pipeline.arrRef spec0 1) : FVec Ideal S1x2048 .f32)
    = shapeCast S1x2048 (m ((c : Thread nD τ).loc main_arg4)) shapeCasts_S2048_S1x2048 := by
  show StableHlo.after hostOps0 (fun b => m (c, b)) (Proc.devRef .tc main_v10) = _
  after_results
  rfl

theorem V_lb (c : Dev nD) : (V m c (Pipeline.arrRef spec0 2) : FVec Ideal S1x2048 .f32)
    = shapeCast S1x2048 (m ((c : Thread nD τ).loc main_arg5)) shapeCasts_S2048_S1x2048 := by
  show StableHlo.after hostOps0 (fun b => m (c, b)) (Proc.devRef .tc main_v11) = _
  after_results
  rfl

theorem V_W (c : Dev nD) : (V m c (Pipeline.arrRef spec0 3) : FVec Ideal S2048x2048 .bf16)
    = truncf .bf16 (transpose S2048x2048 [1, 0] (Host.sign (F := Ideal) (φ := .f32) (m ((c : Thread nD τ).loc main_arg1))) transposes_S2048x2048_S2048x2048_1_0)
        bitsLt_bf16_f32 := by
  show StableHlo.after hostOps0 (fun b => m (c, b)) (Proc.devRef .tc main_v3) = _
  after_results

theorem V_sg (c : Dev nD) : (V m c (Pipeline.arrRef spec0 4) : FVec Ideal S1x2048 .f32)
    = shapeCast S1x2048 (mulf (broadcastInDim S2048 ![] bcast_S_S2048 (absMax (m ((c : Thread nD τ).loc main_arg1))))
        (m ((c : Thread nD τ).loc main_arg2))) shapeCasts_S2048_S1x2048 := by
  show StableHlo.after hostOps0 (fun b => m (c, b)) (Proc.devRef .tc main_v8) = _
  after_results
  rfl

theorem V_br (c : Dev nD) : (V m c (Pipeline.arrRef spec0 5) : FVec Ideal S1x2048 .f32)
    = shapeCast S1x2048 (m ((c : Thread nD τ).loc main_arg3)) shapeCasts_S2048_S1x2048 := by
  show StableHlo.after hostOps0 (fun b => m (c, b)) (Proc.devRef .tc main_v9) = _
  after_results
  rfl

/-! ## The result -/

/-- The specification of this run's arguments. -/
abbrev spec (c : Dev nD) : FVec Ideal S8x2048x2048 .f32 :=
  G (m ((c : Thread nD τ).loc main_arg0)) (Host.sign (F := Ideal) (φ := .f32) (m ((c : Thread nD τ).loc main_arg1)))
    (absMax (m ((c : Thread nD τ).loc main_arg1)) ix0) (m ((c : Thread nD τ).loc main_arg2))
    (m ((c : Thread nD τ).loc main_arg3)) (m ((c : Thread nD τ).loc main_arg4)) (m ((c : Thread nD τ).loc main_arg5))

/-- The region's output at row 2048 b + s, column o, is the specification at (b, s, o). -/
theorem arrG_apply (c : Dev nD) (b : Fin 8) (s o : Fin 2048) (r : Fin 16384) (hr : r.val = b.val * 2048 + s.val) :
    arrG m c (ix2 r o) = spec m c (ix3 b s o) := by
  unfold arrG spec
  rw [V_tokens, V_lw, V_lb, V_W, V_sg, V_br, regionOut_apply, G_apply]
  unfold rowOut
  simp only [tokens_apply _ b s _ r hr, shapeCast_a_1a_apply, truncf_apply]
  rw [scaledFeat_apply]
  conv_lhs => arg 2; ext k; rw [signT_apply]

/-- The region's output, its row axis split back into (8, 2048), is the specification. -/
theorem result_eq (c : Dev nD) :
    shapeCast S8x2048x2048 (arrG m c) shapeCasts_S16384x2048_S8x2048x2048 = spec m c := by
  funext i
  obtain ⟨b, s, o, rfl⟩ : ∃ (b : Fin 8) (s o : Fin 2048), i = ix3 b s o := ⟨i 0, i 1, i 2, eq_ix3 i⟩
  have hlt : b.val * 2048 + s.val < 16384 := by have := b.isLt; have := s.isLt; omega
  refine (shapeCast_apply (arrG m c) _ (ix3 b s o) (ix2 ⟨b.val * 2048 + s.val, hlt⟩ o) ?_).trans
    (arrG_apply m c b s o ⟨b.val * 2048 + s.val, hlt⟩ rfl)
  rw [Shape.rowMajor_val_two, Shape.rowMajor_val_three]
  rfl

/-- What the operation after the region leaves in the result buffer: the region's output array, reshaped. -/
theorem tail_eq (c : Dev nD) :
    Pipeline.afterTail₀ cfgs (dats m) 0 (V0 m) [hostOps1] c main_v13
      = shapeCast S8x2048x2048 (arrG m c) shapeCasts_S16384x2048_S8x2048x2048 := by
  have e : Pipeline.withArrays spec0 c (V0 m c) (fun w => (dats m 0 c).arrAt w cfg0.N) (Proc.devRef .tc main_v12) = arrG m c :=
    (Pipeline.withArrays_arr spec0 launch0.win.arr_inj c _ _ 6).trans (final_o m c)
  unfold Pipeline.afterTail₀
  show StableHlo.after hostOps1 _ (Proc.devRef .tc main_v13) = _
  after_results
  rw [e]
  rfl

/-- THE RUN, READ: every weakly fair execution ends with the result buffer at the specification of the arguments,
    and the arguments unchanged. -/
theorem run : θ_run defs (onTc (τ := τ) (main (F := Ideal))) ⟨m, fun _ => 0, ρ⟩ fun r => ∀ c : Dev nD,
      r.2.mem ((c.tc : Thread nD τ).loc main_v13) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨((h c).2 main_v13 (Pipeline.mem_restRefs_of main_v13 (by decide) (by decide))).trans ((tail_eq m c).trans (result_eq m c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c),
       ((h c).2 main_arg5 (Pipeline.mem_restRefs_of main_arg5 (by decide) (by decide))).trans (W_main_arg5 m (dats m) c)⟩)
    (run_main m ρ)

end Cert.KernelIdeal.Hand

end
-- ==== Proof.lean ====
/-
  The certificate of a fused BitLinear layer against its jnp reference, on the extended reals.

  Both programs take activations x : [8, 2048, 2048], a weight : [2048, 2048], per-feature gamma and beta, and
  layer-norm ln_weight and ln_bias. Both normalize every token of x over its last axis (mean and variance by sums
  divided by 2048, the reciprocal root of variance + eps, then ln_weight and ln_bias), contract the normalized
  token with sign(weight) along the input features, scale by the largest absolute weight and by gamma, and add
  beta. The kernel does this in one pipelined region over blocks of 256 tokens, with the sign matrix transposed
  and the scale folded into gamma beforehand by host operations; the reference does it by host operations alone.

  The value both reach is the one function `Cert.BitLinear.G` of the arguments (Proof/Spec.lean): the kernel by
  Proof/KernelPayload.lean (the body at an index), Proof/KernelBlocks.lean and Proof/KernelRegion.lean (blocks to the
  output array) and Proof/KernelHost.lean (the host operations around the region); the reference by
  Proof/RefValue.lean. The one algebraic law between the two is the associativity of the product on the extended
  reals, (d * sc) * g = d * (sc * g), which holds at every input: the precondition is not used by the value claim.
  The cast to bf16 before the kernel's product changes nothing on the extended reals, and the idealized kernel is the kernel's own text, so the preserves conjunct is `True`.
-/
import proofs.«170098_j86689619903495_1_alg».proof.Defs
import proofs.«170098_j86689619903495_1_alg».proof.Proof.Gen.Kernel
import proofs.«170098_j86689619903495_1_alg».proof.Proof.Gen.Kernel.Skeleton
import proofs.«170098_j86689619903495_1_alg».proof.Proof.Gen.Kernel.Launch
import proofs.«170098_j86689619903495_1_alg».proof.Proof.Gen.Kernel.Points
import proofs.«170098_j86689619903495_1_alg».proof.Proof.Gen.Kernel.Frame
import proofs.«170098_j86689619903495_1_alg».proof.Proof.Gen.KernelIdeal
import proofs.«170098_j86689619903495_1_alg».proof.Proof.Gen.KernelIdeal.Skeleton
import proofs.«170098_j86689619903495_1_alg».proof.Proof.Gen.KernelIdeal.Launch
import proofs.«170098_j86689619903495_1_alg».proof.Proof.Gen.KernelIdeal.Points
import proofs.«170098_j86689619903495_1_alg».proof.Proof.Gen.KernelIdeal.Frame
import proofs.«170098_j86689619903495_1_alg».proof.Proof.Gen.ReferenceIdeal
import proofs.«170098_j86689619903495_1_alg».proof.Proof.Gen.ReferenceIdeal.Run
import proofs.«170098_j86689619903495_1_alg».proof.Proof.Gen.ReferenceIdeal.Read
import proofs.«170098_j86689619903495_1_alg».proof.Proof.Gen.Pre_finite_inputs
import proofs.«170098_j86689619903495_1_alg».proof.Proof.RefValue
import proofs.«170098_j86689619903495_1_alg».proof.Proof.KernelHost
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation of the kernel, so there is nothing to preserve. -/
theorem preserves : Cert.preserves_Kernel_KernelIdeal := trivial

/-- From memories agreeing on the arguments both programs end with the result at the specification of those
    arguments: the kernel by its run read back, the reference by its generated run, its stages and `result_eq`. The
    ternary matrix and the scale are the same host operations on both sides. -/
theorem algebraic : Cert.algebraic_KernelIdeal_ReferenceIdeal := by
  intro m ρ m' ρ' _ hagree
  refine ⟨fun c => Cert.KernelIdeal.Hand.spec m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.RefValue.result_eq,
    (hagree c).1, (hagree c).2.1, (hagree c).2.2.1, (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
